-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel

variable [Facts]

def fn {F : FTy → Type} [FloatOps F] (main_arg0 : FVec F S2048x256 .f32) (main_arg1 : FVec F S2048x256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  main_v8
-- ==== Kernel.lean ====
abbrev S2048x256 : Shape := ⟨2, ![2048, 256]⟩
abbrev S_ : Shape := ⟨0, ![]⟩
abbrev S2048 : Shape := ⟨1, ![2048]⟩
abbrev S256x2048 : Shape := ⟨2, ![256, 2048]⟩
abbrev S1x2048 : Shape := ⟨2, ![1, 2048]⟩
abbrev S2048x1 : Shape := ⟨2, ![2048, 1]⟩
abbrev S1x1 : Shape := ⟨2, ![1, 1]⟩
abbrev S256x256 : Shape := ⟨2, ![256, 256]⟩
abbrev S256x1 : Shape := ⟨2, ![256, 1]⟩
abbrev S256 : Shape := ⟨1, ![256]⟩
abbrev S1 : Shape := ⟨1, ![1]⟩

abbrev nBuf : Space → Nat
  | .hbm => 19
  | .vmem => 9
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S_, .f32⟩
  | .hbm, ⟨5, _⟩ => ⟨S2048, .f32⟩
  | .hbm, ⟨6, _⟩ => ⟨S2048, .f32⟩
  | .hbm, ⟨7, _⟩ => ⟨S2048x256, .f32⟩
  | .hbm, ⟨8, _⟩ => ⟨S_, .f32⟩
  | .hbm, ⟨9, _⟩ => ⟨S2048, .f32⟩
  | .hbm, ⟨10, _⟩ => ⟨S2048x256, .f32⟩
  | .hbm, ⟨11, _⟩ => ⟨S_, .f32⟩
  | .hbm, ⟨12, _⟩ => ⟨S2048, .f32⟩
  | .hbm, ⟨13, _⟩ => ⟨S256x2048, .f32⟩
  | .hbm, ⟨14, _⟩ => ⟨S1x2048, .f32⟩
  | .hbm, ⟨15, _⟩ => ⟨S1x2048, .f32⟩
  | .hbm, ⟨16, _⟩ => ⟨S2048x1, .f32⟩
  | .hbm, ⟨17, _⟩ => ⟨S1x1, .f32⟩
  | .hbm, ⟨18, _⟩ => ⟨S_, .f32⟩
  | .local _ .vmem, ⟨0, _⟩ => ⟨S256x256, .f32⟩
  | .local _ .vmem, ⟨1, _⟩ => ⟨S256x256, .f32⟩
  | .local _ .vmem, ⟨2, _⟩ => ⟨S256x2048, .f32⟩
  | .local _ .vmem, ⟨3, _⟩ => ⟨S1x2048, .f32⟩
  | .local _ .vmem, ⟨4, _⟩ => ⟨S1x2048, .f32⟩
  | .local _ .vmem, ⟨5, _⟩ => ⟨S256x1, .f32⟩
  | .local _ .vmem, ⟨6, _⟩ => ⟨S256x1, .f32⟩
  | .local _ .vmem, ⟨7, _⟩ => ⟨S1x1, .f32⟩
  | .local _ .vmem, ⟨8, _⟩ => ⟨S1x1, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v47 : BitVec 1 := Scalar.cmpi .eq arg0 c7_i32
  let v48 : BitVec 32 := Scalar.extui v47
  let c0_i32_21 : BitVec 32 := 0#32
  let v49 : BitVec 1 := Scalar.cmpi .ne v48 c0_i32_21
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  reducesTo_S2048x256_S2048_d1 : S2048x256.ReducesTo [1] S2048
  h_S_ : 0 < S_.numel
  transposes_S2048x256_S256x2048_1_0 : S2048x256.Transposes [1, 0] S256x2048
  shapeCasts_S2048_S1x2048 : S2048.ShapeCasts S1x2048
  shapeCasts_S2048_S2048x1 : S2048.ShapeCasts S2048x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S256x1_S256x2048 : S256x1.Broadcasts S256x2048
  broadcasts_S1x2048_S256x2048 : S1x2048.Broadcasts S256x2048
  iota_S256x2048_d0_w32 : S256x2048.Iotas .tc 32 [0]
  iota_S256x2048_d1_w32 : S256x2048.Iotas .tc 32 [1]
  reduces_S256x2048_S256 : S256x2048.Reduces [1] S256
  shapeCasts_S256_S256x1 : S256.ShapeCasts S256x1
  reduces_S256x1_S1 : S256x1.Reduces [0] S1
  shapeCasts_S1_S1x1 : S1.ShapeCasts S1x1
  shapeCasts_S1x1_S_ : S1x1.ShapeCasts S_
  dot_S256x256_S256x2048_S256x2048_1_0_0_1_n_n_wf : DotDims.WF S256x256 S256x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S2048x256.size a
  hwx0_0 : ∀ i : grid0.Coords, EltTy.bits .f32 = 32 ∨ (Rect.block (s := S2048x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S256x2048.size a
  hwx0_1 : ∀ i : grid0.Coords, EltTy.bits .f32 = 32 ∨ (Rect.block (s := S256x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S2048x1.size a
  hwx0_4 : ∀ i : grid0.Coords, EltTy.bits .f32 = 32 ∨ (Rect.block (s := S2048x1) S256x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

def dot_S256x256_S256x2048_S256x2048_1_0_0_1_n_n : DotDims S256x256 S256x2048 S256x2048 where
  lhsContracting := [1]
  rhsContracting := [0]
  lhsNonContracting := [0]
  rhsNonContracting := [1]
  lhsBatch := []
  rhsBatch := []
  wf := dot_S256x256_S256x2048_S256x2048_1_0_0_1_n_n_wf

abbrev win0_0 : Pipeline.Window sig grid0 :=
  Pipeline.Window.ofSpec (Memref.whole main_arg1) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S256x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2048x256 : Shape := ⟨2, ![2048, 256]⟩
abbrev S_ : Shape := ⟨0, ![]⟩
abbrev S2048 : Shape := ⟨1, ![2048]⟩
abbrev S2048x2048 : Shape := ⟨2, ![2048, 2048]⟩
abbrev S2048x1 : Shape := ⟨2, ![2048, 1]⟩
abbrev S1x2048 : Shape := ⟨2, ![1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S_, .f32⟩
  | .hbm, ⟨5, _⟩ => ⟨S2048, .f32⟩
  | .hbm, ⟨6, _⟩ => ⟨S2048, .f32⟩
  | .hbm, ⟨7, _⟩ => ⟨S2048x256, .f32⟩
  | .hbm, ⟨8, _⟩ => ⟨S_, .f32⟩
  | .hbm, ⟨9, _⟩ => ⟨S2048, .f32⟩
  | .hbm, ⟨10, _⟩ => ⟨S2048x256, .f32⟩
  | .hbm, ⟨11, _⟩ => ⟨S_, .f32⟩
  | .hbm, ⟨12, _⟩ => ⟨S2048, .f32⟩
  | .hbm, ⟨13, _⟩ => ⟨S2048x2048, .f32⟩
  | .hbm, ⟨14, _⟩ => ⟨S2048x1, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .i32⟩
  | .hbm, ⟨34, _⟩ => ⟨S2048x2048, .i32⟩
  | .hbm, ⟨35, _⟩ => ⟨S_, .i32⟩
  | .hbm, ⟨36, _⟩ => ⟨S2048x2048, .i32⟩
  | .hbm, ⟨37, _⟩ => ⟨S2048x2048, .i32⟩
  | .hbm, ⟨38, _⟩ => ⟨S2048x2048, .i1⟩
  | .hbm, ⟨39, _⟩ => ⟨S2048x2048, .f32⟩
  | .hbm, ⟨40, _⟩ => ⟨S_, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2048, .f32⟩
  | .hbm, ⟨49, _⟩ => ⟨S_, .f32⟩
  | .hbm, ⟨50, _⟩ => ⟨S2048, .f32⟩
  | .hbm, ⟨51, _⟩ => ⟨S2048, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_cst : Ref sig .tc := ⟨.hbm, 44, rfl⟩
abbrev main_call0_v0 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩

abbrev nD : Nat := 1
abbrev τ : Topo := Topo.v7x

variable {F : FTy → Type} [FloatOps F]

class Facts₀ : Prop where
  reducesTo_S2048x256_S2048_d1 : S2048x256.ReducesTo [1] S2048
  h_S_ : 0 < S_.numel
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)
  reducesTo_S2048x2048_S2048_d1 : S2048x2048.ReducesTo [1] S2048
  bcast_S_S2048 : S_.BroadcastsInDim S2048 (![] : Fin 0 → Fin S2048.rank)
  reducesTo_S2048_S_d0 : S2048.ReducesTo [0] S_
  dot_S2048x256_S2048x256_S2048x2048_1_1_0_0_n_n_wf : DotDims.WF S2048x256 S2048x256 S2048x2048 [1] [1] [0] [0] [] []

variable [Facts₀]

def dot_S2048x256_S2048x256_S2048x2048_1_1_0_0_n_n : DotDims S2048x256 S2048x256 S2048x2048 where
  lhsContracting := [1]
  rhsContracting := [1]
  lhsNonContracting := [0]
  rhsNonContracting := [0]
  lhsBatch := []
  rhsBatch := []
  wf := dot_S2048x256_S2048x256_S2048x2048_1_1_0_0_n_n_wf

class Facts : Prop extends Facts₀ where

variable [Facts]
-- ==== Proof.KernelPieces.lean ====
/-
  What the kernel leaves behind, read as values.

  The body at a grid point computes one 256-row tile of the loss table from the point's blocks, adds the tile's
  total to a one-entry accumulator it keeps between points (set to zero before the first tile), and at the last
  point writes the accumulator divided by 2^22 to the one-entry result. So after point n the accumulator holds
  the running total of tiles 0..n, added in that order from zero; the result array ends at the last running total
  over 2^22; and the scalar the program returns is that entry.
-/
import proofs.«122405_j75943611728236_1_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A middle point: the accumulator found at xs ends at xs plus the tile's total. -/
theorem sout_B (c : Dev nD) (i : grid0.Coords) (a1 : Memref sig .tc .vmem S256x256 .f32) (h1 : a1.IsWhole)
    (a2 : Memref sig .tc .vmem S256x2048 .f32) (h2 : a2.IsWhole) (a3 : Memref sig .tc .vmem S1x2048 .f32) (h3 : a3.IsWhole)
    (a4 : Memref sig .tc .vmem S1x2048 .f32) (h4 : a4.IsWhole) (a5 : Memref sig .tc .vmem S256x1 .f32) (h5 : a5.IsWhole)
    (a6 : Memref sig .tc .vmem S1x1 .f32) (h6 : a6.IsWhole) (a7 : Memref sig .tc .vmem S1x1 .f32) (h7 : a7.IsWhole)
    (hc0 : ¬cond0_0 i) (hc1 : ¬cond0_1 i)
    (x0 : Vec F S256x256 .f32) (x1 : Vec F S256x2048 .f32) (x2 : Vec F S1x2048 .f32) (x3 : Vec F S1x2048 .f32) (x4 : Vec F S256x1 .f32)
    (xs : Vec F S1x1 .f32) :
    sout0_B_0 c i a1 h1 a2 h2 a3 h3 a4 h4 a5 h5 a6 h6 a7 h7 hc0 hc1 x0 x1 x2 x3 x4 xs
      = k0_pay1 (k0_pay4 i x0 x1 x4 x3 x2) xs := by
  unfold sout0_B_0
  rw [View.read_writes_eq_canon _ _ _ (scover0_B_0 c i a1 h1 a2 h2 a3 h3 a4 h4 a5 h5 a6 h6 a7 h7 hc0 hc1 x0 x1 x2 x3 x4 xs)]
  unfold kernelRun0_B
  dsimp only
  sl_unfold_words
  rw [View.canon_unit_zero hz]
  simp only [View.readAt_eq_ld, h1.read_unread, h2.read_unread, h3.read_unread, h4.read_unread, h5.read_unread, h7.read_unread, View.readCov_unit_zero (S := S1x1) _ hz, View.ld_unit_zero (S := S256x256) hz, View.ld_unit_zero (S := S256x2048) hz, View.ld_unit_zero (S := S1x2048) hz, View.ld_unit_zero (S := S256x1) hz, View.ld_unit_zero (S := S1x1) hz]

/-- The last point: the same for the accumulator, -/
theorem sout_C (c : Dev nD) (i : grid0.Coords) (a1 : Memref sig .tc .vmem S256x256 .f32) (h1 : a1.IsWhole)
    (a2 : Memref sig .tc .vmem S256x2048 .f32) (h2 : a2.IsWhole) (a3 : Memref sig .tc .vmem S1x2048 .f32) (h3 : a3.IsWhole)
    (a4 : Memref sig .tc .vmem S1x2048 .f32) (h4 : a4.IsWhole) (a5 : Memref sig .tc .vmem S256x1 .f32) (h5 : a5.IsWhole)
    (a6 : Memref sig .tc .vmem S1x1 .f32) (h6 : a6.IsWhole) (a7 : Memref sig .tc .vmem S1x1 .f32) (h7 : a7.IsWhole)
    (hc0 : ¬cond0_0 i) (hc1 : cond0_1 i)
    (x0 : Vec F S256x256 .f32) (x1 : Vec F S256x2048 .f32) (x2 : Vec F S1x2048 .f32) (x3 : Vec F S1x2048 .f32) (x4 : Vec F S256x1 .f32)
    (xs : Vec F S1x1 .f32) :
    sout0_C_0 c i a1 h1 a2 h2 a3 h3 a4 h4 a5 h5 a6 h6 a7 h7 hc0 hc1 x0 x1 x2 x3 x4 xs
      = k0_pay1 (k0_pay4 i x0 x1 x4 x3 x2) xs := by
  unfold sout0_C_0
  rw [View.read_writes_eq_canon _ _ _ (scover0_C_0 c i a1 h1 a2 h2 a3 h3 a4 h4 a5 h5 a6 h6 a7 h7 hc0 hc1 x0 x1 x2 x3 x4 xs)]
  unfold kernelRun0_C
  dsimp only
  sl_unfold_words
  rw [View.canon_unit_zero hz]
  simp only [View.readAt_eq_ld, h1.read_unread, h2.read_unread, h3.read_unread, h4.read_unread, h5.read_unread, h7.read_unread, View.readCov_unit_zero (S := S1x1) _ hz, View.ld_unit_zero (S := S256x256) hz, View.ld_unit_zero (S := S256x2048) hz, View.ld_unit_zero (S := S1x2048) hz, View.ld_unit_zero (S := S256x1) hz, View.ld_unit_zero (S := S1x1) hz]

/-- and the result's block is the accumulator just stored, read back and divided. -/
theorem out_C (c : Dev nD) (i : grid0.Coords) (a1 : Memref sig .tc .vmem S256x256 .f32) (h1 : a1.IsWhole)
    (a2 : Memref sig .tc .vmem S256x2048 .f32) (h2 : a2.IsWhole) (a3 : Memref sig .tc .vmem S1x2048 .f32) (h3 : a3.IsWhole)
    (a4 : Memref sig .tc .vmem S1x2048 .f32) (h4 : a4.IsWhole) (a5 : Memref sig .tc .vmem S256x1 .f32) (h5 : a5.IsWhole)
    (a6 : Memref sig .tc .vmem S1x1 .f32) (h6 : a6.IsWhole) (a7 : Memref sig .tc .vmem S1x1 .f32) (h7 : a7.IsWhole)
    (hc0 : ¬cond0_0 i) (hc1 : cond0_1 i)
    (x0 : Vec F S256x256 .f32) (x1 : Vec F S256x2048 .f32) (x2 : Vec F S1x2048 .f32) (x3 : Vec F S1x2048 .f32) (x4 : Vec F S256x1 .f32)
    (xs : Vec F S1x1 .f32) :
    out0_C_5 c i a1 h1 a2 h2 a3 h3 a4 h4 a5 h5 a6 h6 a7 h7 hc0 hc1 x0 x1 x2 x3 x4 xs
      = k0_pay2 (k0_pay1 (k0_pay4 i x0 x1 x4 x3 x2) xs) := by
  unfold out0_C_5
  rw [View.read_writes_eq_canon _ _ _ (cover0_C_5 c i a1 h1 a2 h2 a3 h3 a4 h4 a5 h5 a6 h6 a7 h7 hc0 hc1 x0 x1 x2 x3 x4 xs)]
  unfold kernelRun0_C
  dsimp only
  sl_unfold_words
  rw [View.canon_unit_zero hz]
  simp only [View.readAt_eq_ld, h1.read_unread, h2.read_unread, h3.read_unread, h4.read_unread, h5.read_unread, h7.read_unread, View.readCov_unit_zero (S := S1x1) _ hz, View.ld_unit_zero (S := S256x256) hz, View.ld_unit_zero (S := S256x2048) hz, View.ld_unit_zero (S := S1x2048) hz, View.ld_unit_zero (S := S256x1) hz, View.ld_unit_zero (S := S1x1) hz]

/-- The first point: the accumulator is set to zero, read back, and ends at zero plus the tile's total. -/
theorem sout_A (c : Dev nD) (i : grid0.Coords) (a1 : Memref sig .tc .vmem S256x256 .f32) (h1 : a1.IsWhole)
    (a2 : Memref sig .tc .vmem S256x2048 .f32) (h2 : a2.IsWhole) (a3 : Memref sig .tc .vmem S1x2048 .f32) (h3 : a3.IsWhole)
    (a4 : Memref sig .tc .vmem S1x2048 .f32) (h4 : a4.IsWhole) (a5 : Memref sig .tc .vmem S256x1 .f32) (h5 : a5.IsWhole)
    (a6 : Memref sig .tc .vmem S1x1 .f32) (h6 : a6.IsWhole) (a7 : Memref sig .tc .vmem S1x1 .f32) (h7 : a7.IsWhole)
    (hc0 : cond0_0 i) (hc1 : ¬cond0_1 i)
    (x0 : Vec F S256x256 .f32) (x1 : Vec F S256x2048 .f32) (x2 : Vec F S1x2048 .f32) (x3 : Vec F S1x2048 .f32) (x4 : Vec F S256x1 .f32) :
    sout0_A_0 c i a1 h1 a2 h2 a3 h3 a4 h4 a5 h5 a6 h6 a7 h7 hc0 hc1 x0 x1 x2 x3 x4
      = k0_pay1 (k0_pay4 i x0 x1 x4 x3 x2) k0_pay3 := by
  unfold sout0_A_0
  rw [View.read_writes_eq_canon _ _ _ (scover0_A_0 c i a1 h1 a2 h2 a3 h3 a4 h4 a5 h5 a6 h6 a7 h7 hc0 hc1 x0 x1 x2 x3 x4)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, h7.read_unread, View.readCov_unit_zero (S := S1x1) _ hz, View.ld_unit_zero (S := S256x256) hz, View.ld_unit_zero (S := S256x2048) hz, View.ld_unit_zero (S := S1x2048) hz, View.ld_unit_zero (S := S256x1) hz, View.ld_unit_zero (S := S1x1) hz]

variable (m : (ℓ : Loc nD τ sig) → Buf (Elt F) ℓ) (ρ : Dev nD → PrngReg)

/-- The blocks the body finds at point t, at their literal types: 256 rows of the first operand, the whole second
    operand, the two whole rows, 256 entries of the column. -/
abbrev blk0 (c : Dev nD) (t : Fin cfg0.N) : Vec F S256x256 .f32 := iblk m c 0 t
abbrev blk1 (c : Dev nD) (t : Fin cfg0.N) : Vec F S256x2048 .f32 := iblk m c 1 t
abbrev blk2 (c : Dev nD) (t : Fin cfg0.N) : Vec F S1x2048 .f32 := iblk m c 2 t
abbrev blk3 (c : Dev nD) (t : Fin cfg0.N) : Vec F S1x2048 .f32 := iblk m c 3 t
abbrev blk4 (c : Dev nD) (t : Fin cfg0.N) : Vec F S256x1 .f32 := iblk m c 4 t

/-- The tile of the loss table the body computes at point t. -/
def tile (c : Dev nD) (t : Fin cfg0.N) : FVec F S256x2048 .f32 :=
  k0_pay4 (grid0.coords t) (blk0 m c t) (blk1 m c t) (blk4 m c t) (blk3 m c t) (blk2 m c t)

/-- The accumulator after point n: zero plus tile 0's total, then plus each later tile's total, in order. -/
def acc (c : Dev nD) : (n : ℕ) → n < cfg0.N → Vec F S1x1 .f32
  | 0, h => k0_pay1 (tile m c ⟨0, h⟩) k0_pay3
  | n + 1, h => k0_pay1 (tile m c ⟨n + 1, h⟩) (acc c n (Nat.lt_of_succ_lt h))

/-- What the run finds in the accumulator after point n is that running total: by induction on the point. -/
theorem scratch_eq (c : Dev nD) : ∀ (n : ℕ) (h : n < cfg0.N), (outsAt0 m c n h).2 = acc m c n h
  | 0, h => by
    rw [outsAt0_A m c ⟨0, h⟩ rfl (by show ¬(0 % 8 = 7); decide)]
    dsimp only
    exact sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) _ _ (iblk m c 0 ⟨0, h⟩) (iblk m c 1 ⟨0, h⟩) (iblk m c 2 ⟨0, h⟩) (iblk m c 3 ⟨0, h⟩) (iblk m c 4 ⟨0, h⟩)
  | n + 1, h => by
    have hN : cfg0.N = 8 := N_0
    have h0 : ¬(⟨n + 1, h⟩ : Fin cfg0.N).val % 8 = 0 := by dsimp only; omega
    by_cases h1 : (⟨n + 1, h⟩ : Fin cfg0.N).val % 8 = 7
    · rw [outsAt0_C m c ⟨n + 1, h⟩ h0 h1]
      dsimp only
      rw [sout_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩)]
      show k0_pay1 _ (outsAt0 m c n _).2 = k0_pay1 _ (acc m c n _)
      rw [scratch_eq c n]
      rfl
    · rw [outsAt0_B m c ⟨n + 1, h⟩ h0 h1]
      dsimp only
      rw [sout_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩)]
      show k0_pay1 _ (outsAt0 m c n _).2 = k0_pay1 _ (acc m c n _)
      rw [scratch_eq c n]
      rfl

theorem lt7 : 7 < cfg0.N := by rw [show cfg0.N = 8 from N_0]; decide

/-- The result array's contents at the end: the last running total over 2^22. -/
abbrev result (c : Dev nD) : Buf (Elt F) ((c : Thread nD τ).loc main_v12) := k0_pay2 (acc m c 7 lt7)

/-- The last point leaves that in the result's staging buffer. -/
theorem out_eq (c : Dev nD) : (outsAt0 m c 7 lt7).1 = result m c := by
  have h0 : ¬(⟨7, lt7⟩ : Fin cfg0.N).val % 8 = 0 := by decide
  have h1 : (⟨7, lt7⟩ : Fin cfg0.N).val % 8 = 7 := by decide
  rw [outsAt0_C m c ⟨7, lt7⟩ h0 h1]
  dsimp only
  rw [out_C c (grid0.coords ⟨7, lt7⟩) (ms0_0 ⟨7, lt7⟩) (hs0_0 ⟨7, lt7⟩) (ms0_1 ⟨7, lt7⟩) (hs0_1 ⟨7, lt7⟩) (ms0_2 ⟨7, lt7⟩) (hs0_2 ⟨7, lt7⟩) (ms0_3 ⟨7, lt7⟩) (hs0_3 ⟨7, lt7⟩) (ms0_4 ⟨7, lt7⟩) (hs0_4 ⟨7, lt7⟩) (ms0_5 ⟨7, lt7⟩) (hs0_5 ⟨7, lt7⟩) scM0_0 (Memref.isWhole_whole _) _ _ (iblk m c 0 ⟨7, lt7⟩) (iblk m c 1 ⟨7, lt7⟩) (iblk m c 2 ⟨7, lt7⟩) (iblk m c 3 ⟨7, lt7⟩) (iblk m c 4 ⟨7, lt7⟩)]
  show k0_pay2 (k0_pay1 _ (outsAt0 m c 6 _).2) = k0_pay2 (k0_pay1 _ (acc m c 6 _))
  rw [scratch_eq m c 6]
  rfl

end Cert.KernelIdeal.Pieces

end
-- ==== Proof.KernelRun.lean ====
/-
  The kernel program's run, read: the one entry it returns.

  The result's one block is written back once, after the last grid point, and that block is the whole one-entry
  array; the host reshape after the region hands the entry on as a scalar.
-/
import proofs.«122405_j75943611728236_1_alg».proof.Proof.KernelPieces

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]
variable (m : (ℓ : Loc nD τ sig) → Buf (Elt F) ℓ) (ρ : Dev nD → PrngReg)

/-- The one write-back, at the last point, writes the last running total over 2^22: block (0, 0) of the [1, 1]
    array read through zero offsets is the array. -/
theorem flushed_eq (c : Dev nD) (t : Fin cfg0.N) (hf : (cfg0.win 5).flush t = true) :
    (dats m 0 c).flushed 5 t = ((cfg0.win 5).blk t).view.read (Elt F) (result m c) := by
  have hN : cfg0.N = 8 := N_0
  have h7 : t.val = 7 := by have := (flush0_5 t).mp hf; have := t.isLt; omega
  obtain rfl : t = ⟨7, lt7⟩ := Fin.ext h7
  show (cfg0.win 5).cut (grid0.coords ⟨7, lt7⟩) ((dats m 0 c).after 5 ⟨7, lt7⟩) = _
  rw [after0_5]
  show (cfg0.win 5).cut (grid0.coords ⟨7, lt7⟩) (outsAt0 m c 7 lt7).1 = _
  rw [out_eq]
  have hz' : (fun a => win0_5.index ⟨7, lt7⟩ a * main_v12.ty.shape.size a) = fun _ => 0 := funext fun a => by fin_cases a <;> decide
  exact (Memref.read_access_unit_zero (Elt F) main_v12 hz' (fun a => by rw [congrFun hz' a]; simp) (result m c)).symm

/-- So the result array ends holding it: the last point's block covers the array. -/
theorem final_o (c : Dev nD) : (dats m 0 c).arrAt 5 cfg0.N = result m c :=
  (dats m 0 c).arrAt_eq_of_cover 5 (result m c) (flushed_eq m c) fun i =>
    ⟨⟨7, lt7⟩, (flush0_5 ⟨7, lt7⟩).mpr rfl, by
      show i ∈ ((View.whole main_v12).slice (win0_5.rect ⟨7, lt7⟩)).set
      rw [View.set_slice_whole, Rect.mem_set_unit]
      intro a
      have h0 : (i 0 : Nat) < 1 := (i 0).isLt
      have h1 : (i 1 : Nat) < 1 := (i 1).isLt
      match a with
      | ⟨0, _⟩ => show win0_5.index ⟨7, lt7⟩ 0 * win0_5.size 0 ≤ (i 0 : Nat) ∧ (i 0 : Nat) < win0_5.index ⟨7, lt7⟩ 0 * win0_5.size 0 + win0_5.xsize (grid0.coords ⟨7, lt7⟩) 0
                  rw [show win0_5.index ⟨7, lt7⟩ 0 * win0_5.size 0 = 0 from by decide +kernel, show win0_5.xsize (grid0.coords ⟨7, lt7⟩) 0 = 1 from by decide +kernel]; omega
      | ⟨1, _⟩ => show win0_5.index ⟨7, lt7⟩ 1 * win0_5.size 1 ≤ (i 1 : Nat) ∧ (i 1 : Nat) < win0_5.index ⟨7, lt7⟩ 1 * win0_5.size 1 + win0_5.xsize (grid0.coords ⟨7, lt7⟩) 1
                  rw [show win0_5.index ⟨7, lt7⟩ 1 * win0_5.size 1 = 0 from by decide +kernel, show win0_5.xsize (grid0.coords ⟨7, lt7⟩) 1 = 1 from by decide +kernel]; omega⟩

/-- The scalar the program returns: the reshape after the region reads the result array. -/
theorem tail_eq (c : Dev nD) :
    Pipeline.afterTail₀ cfgs (dats m) 0 (V0 m) [hostOps1] c main_v13 = shapeCast S_ (result m c) shapeCasts_S1x1_S_ := by
  unfold Pipeline.afterTail₀
  show StableHlo.after hostOps1 _ (Proc.devRef .tc main_v13) = _
  after_results
  have e : Pipeline.withArrays (cfgs 0).spec c (V0 m c) (fun w => (dats m 0 c).arrAt w (cfgs 0).N) (Proc.devRef .tc main_v12)
      = result m c := (Pipeline.withArrays_arr spec0 launch0.win.arr_inj c _ _ 5).trans (final_o m c)
  rw [e]
  rfl

/-- The run, read: the returned scalar at the last running total over 2^22, the arguments unchanged. -/
theorem run : θ_run defs (onTc (τ := τ) (main (F := F))) ⟨m, fun _ => 0, ρ⟩ fun r => ∀ c : Dev nD,
      r.2.mem ((c.tc : Thread nD τ).loc main_v13) = shapeCast S_ (result m c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v13 (Pipeline.mem_restRefs_of main_v13 (by decide) (by decide))).trans (tail_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c)))⟩) (run_main m ρ)

end Cert.KernelIdeal.Pieces

end
-- ==== Proof.LibColumn.lean ====
/-
  Rank-2 arrays whose last axis is reduced with `keepdims`: the least and the greatest entry of each row, kept as a
  one-wide column and spread back over the row.
  * a `multi_reduction <minimumf>` over one axis, at the ideal values, as the fold of `min` over that axis's
    coordinates (the library has the `<maximumf>` form);
  * the index a reduction over the LAST axis of an [a, b] array inserts: `(r, k)` over `r`;
  * the keepdims column forms read at an index: [a] → [a, 1] by a shape cast, [a, 1] → [a, b] by a broadcast.
-/
import Idealize.ShloMosaic.Lib.Pipeline.Value
import Idealize.ShloMosaic.Lib.ValueIdx
import Idealize.ShloMosaic.PureOps.Ideal.Laws

noncomputable section

namespace Cert.LibColumn

open Idealize.ShloMosaic Idealize.ShloMosaic.ValueIdx

variable {α : Type}

/-- A float `vector.multi_reduction <minimumf>` over one axis, read at the ideal values: the fold of `min` from the
    accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Reducing the last axis of an [a, b] array: over row `r`, coordinate `k` is inserted as `(r, k)`. -/
theorem lift_last_ix2 {a b : ℕ} (h : (⟨2, ![a, b]⟩ : Shape).Reduces [(1 : Fin 2)] ⟨1, ![a]⟩) (r : Fin a) (k : Fin b) :
    h.lift (ix1 r) k = ix2 r k := by
  funext c
  apply Fin.ext
  refine (h.lift_val (ix1 r) k c).trans ?_
  match c with
  | ⟨0, _⟩ => rfl
  | ⟨1, _⟩ => rfl

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.LibRowFold.lean ====
/-
  The index a one-axis reduction inserts, by coordinates. Reducing the FIRST axis of an [a, b] array: over column `q`,
  coordinate `k` is inserted as `(k, q)`. Reducing the LAST axis of an [a, b, c] array: over `(p, q)`, coordinate `k`
  is inserted as `(p, q, k)`.
-/
import Idealize.ShloMosaic.Lib.ValueIdx
import Idealize.ShloMosaic.PureOps.Ideal.Laws

noncomputable section

namespace Cert.LibRowFold

open Idealize.ShloMosaic Idealize.ShloMosaic.ValueIdx

/-- Reducing the first axis of an [a, b] array: over column `q`, coordinate `k` is inserted as `(k, q)`. -/
theorem lift_first_ix2 {a b : ℕ} (h : (⟨2, ![a, b]⟩ : Shape).Reduces [(0 : Fin 2)] ⟨1, ![b]⟩) (q : Fin b) (k : Fin a) :
    h.lift (ix1 q) k = ix2 k q := by
  funext c
  apply Fin.ext
  refine (h.lift_val (ix1 q) k c).trans ?_
  match c with
  | ⟨0, _⟩ => rfl
  | ⟨1, _⟩ => rfl

/-- Reducing the last axis of an [a, b, c] array: over `(p, q)`, coordinate `k` is inserted as `(p, q, k)`. -/
theorem lift_last_ix3 {a b c : ℕ} (h : (⟨3, ![a, b, c]⟩ : Shape).Reduces [(2 : Fin 3)] ⟨2, ![a, b]⟩) (p : Fin a) (q : Fin b) (k : Fin c) :
    h.lift (ix2 p q) k = ix3 p q k := by
  funext d
  apply Fin.ext
  refine (h.lift_val (ix2 p q) k d).trans ?_
  match d with
  | ⟨0, _⟩ => rfl
  | ⟨1, _⟩ => rfl
  | ⟨2, _⟩ => rfl

end Cert.LibRowFold

end
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.KernelTile.lean ====
/-
  The kernel body's arithmetic at the ideal values, read at an entry.
-/
import proofs.«122405_j75943611728236_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«122405_j75943611728236_1_alg».proof.Proof.LibColumn
import proofs.«122405_j75943611728236_1_alg».proof.Proof.LibRowFold
import proofs.«122405_j75943611728236_1_alg».proof.Proof.LibPlainMatmul

noncomputable section

namespace Cert.KernelIdeal.Tile

open Cert.KernelIdeal Cert.KernelIdeal.Gen Idealize.ShloMosaic Idealize.ShloMosaic.ValueIdx

theorem cmpi_apply {s : Shape} {w : Nat} (p : CmpIPredicate) (a b : IVec s w) (i : s.Idx) :
    cmpi p a b i = IntOp.cmpi p (a i) (b i) := rfl
theorem addi_apply {s : Shape} {w : Nat} (a b : IVec s w) (i : s.Idx) : addi a b i = IntOp.addi (a i) (b i) := rfl
theorem sqrt_apply {s : Shape} {φ : FTy} (a : FVec Ideal s φ) (i : s.Idx) : sqrt a i = Ideal.sqrt (a i) := rfl

theorem pay4_apply (i : grid0.Coords) (b0 : Vec Ideal S256x256 .f32) (b1 : Vec Ideal S256x2048 .f32)
    (b4 : Vec Ideal S256x1 .f32) (b3 b2 : Vec Ideal S1x2048 .f32) (r : Fin 256) (j : Fin 2048) :
    k0_pay4 (F := Ideal) i b0 b1 b4 b3 b2 (ix2 r j)
      = max (if IntOp.cmpi .eq (IntOp.addi (BitVec.ofNat 32 r.val) (Scalar.muli (BitVec.ofNat 32 (i 0).val) 256#32))
              (BitVec.ofNat 32 j.val) = 1#1 then Ideal.ofBits .f32 0x00000000#32
          else (b2 (ix2 0 j) - Ideal.sqrt (max ((b4 (ix2 r 0) + b3 (ix2 0 j))
              - Ideal.ofBits .f32 0x40000000#32 * ∑ d : Fin 256, b0 (ix2 r d) * b1 (ix2 d j)) (Ideal.ofBits .f32 0x00000000#32)))
            + Ideal.ofBits .f32 0x3E99999A#32) (Ideal.ofBits .f32 0x00000000#32) := by
  unfold k0_pay4
  dsimp only
  simp only [maximumf_apply, select_apply, addf_apply, subf_apply, mulf_apply, broadcast_apply, cmpi_apply, addi_apply,
    sqrt_apply, shapeCast_self]
  rw [iota_single_apply, iota_single_apply, broadcastTo_1b_ab_apply, LibColumn.broadcastTo_a1_ab_apply, broadcastTo_1b_ab_apply,
    PlainMatmul.matmul_zero_apply dot_S256x256_S256x2048_S256x2048_1_0_0_1_n_n dot_S256x256_S256x2048_S256x2048_1_0_0_1_n_n_wf rfl none
      (truncf .bf16 b0 bitsLt_bf16_f32) (truncf .bf16 b1 bitsLt_bf16_f32) r j]
  rfl

/-- A row's total: the lane sum over the last axis, at row r. -/
theorem rows_total (v : FVec Ideal S256x2048 .f32) (h : S256x2048.Reduces [1] S256)
    (hacc : (0x00000000#32 : BitVec 32) = 0x00000000#32) (r : Fin 256) :
    multiReduction .add [1] S256 v 0x00000000#32 h (.inl rfl) hacc (ix1 r) = ∑ j : Fin 2048, v (ix2 r j) :=
  (Ideal.multiReduction_add_single v 0x00000000#32 h (.inl rfl) hacc (ix1 r)).trans
    (Finset.sum_congr rfl fun j _ => congrArg v (LibColumn.lift_last_ix2 h r j))

/-- The total of a column of 256 entries. -/
theorem col_total (w : FVec Ideal S256x1 .f32) (h : S256x1.Reduces [0] S1)
    (hacc : (0x00000000#32 : BitVec 32) = 0x00000000#32) :
    multiReduction .add [0] S1 w 0x00000000#32 h (.inl rfl) hacc (ix1 0) = ∑ r : Fin 256, w (ix2 r 0) :=
  (Ideal.multiReduction_add_single w 0x00000000#32 h (.inl rfl) hacc (ix1 0)).trans
    (Finset.sum_congr rfl fun r _ => congrArg w (LibRowFold.lift_first_ix2 h 0 r))

/-- The accumulator's update at its one entry: what it held plus the tile's total, the rows' totals added up. -/
theorem pay1_apply (v : FVec Ideal S256x2048 .f32) (xs : Vec Ideal S1x1 .f32) :
    k0_pay1 (F := Ideal) v xs (ix2 0 0) = xs (ix2 0 0) + ∑ r : Fin 256, ∑ j : Fin 2048, v (ix2 r j) := by
  unfold k0_pay1
  dsimp only
  simp only [shapeCast_self, addf_apply]
  refine congrArg (xs (ix2 0 0) + ·) ?_
  refine (LibColumn.shapeCast_a_a1_apply _ _ 0 0).trans ?_
  refine (col_total _ _ _).trans ?_
  refine Finset.sum_congr rfl fun r _ => ?_
  refine (LibColumn.shapeCast_a_a1_apply _ _ r 0).trans ?_
  exact rows_total _ _ _ r

/-- The division at the last point, at the one entry. -/
theorem pay2_apply (xs : Vec Ideal S1x1 .f32) :
    k0_pay2 (F := Ideal) xs (ix2 0 0) = Ideal.div (xs (ix2 0 0)) (Ideal.ofBits .f32 0x4A800000#32) := rfl

/-- The zero the accumulator is set to before the first tile. -/
theorem pay3_apply : k0_pay3 (F := Ideal) (ix2 0 0) = Ideal.ofBits .f32 0x00000000#32 := by
  unfold k0_pay3
  rw [shapeCast_self]
  rfl

end Cert.KernelIdeal.Tile

end
-- ==== Proof.KernelArrays.lean ====
/-
  The arrays the region finds, and the blocks its windows read from them.

  Before the region the host computes, from the two input tables a0 (the sketches) and a1 (the photos): a0 transposed;
  the row vector of distances sqrt(sum_d (a0 - a1)^2); the row vector of squared norms of a0's rows; the column of
  squared norms of a1's rows. The region's windows stage a1 in slabs of 256 rows, the transpose and the two row
  vectors whole, and the column in pieces of 256.
-/
import proofs.«122405_j75943611728236_1_alg».proof.Proof.KernelPieces
import Idealize.ShloMosaic.Lib.ValueLayout
import proofs.«122405_j75943611728236_1_alg».proof.Proof.LibColumn

noncomputable section

open Idealize.ShloMosaic Idealize.ShloMosaic.TcCoe Idealize.SL.Sem Idealize.ShloMosaic.ValueIdx

namespace Cert.KernelIdeal.Arrays

open Cert.KernelIdeal Cert.KernelIdeal.Gen Cert.KernelIdeal.Pieces

variable {F : FTy → Type} [FloatOps F]
variable (m : (ℓ : Loc nD τ sig) → Buf (Elt F) ℓ)

/-- The two input tables. -/
abbrev a0 (c : Dev nD) : Vec F S2048x256 .f32 := m ((c : Thread nD τ).loc main_arg0)
abbrev a1 (c : Dev nD) : Vec F S2048x256 .f32 := m ((c : Thread nD τ).loc main_arg1)

/-- The host's three vectors. -/
def posK (c : Dev nD) : FVec F S2048 .f32 :=
  Host.sqrt (Host.reduceAdd (mulf (subf (a0 m c) (a1 m c)) (subf (a0 m c) (a1 m c))) (constant S_ .f32 0x00000000#32)
    reducesTo_S2048x256_S2048_d1 h_S_)
def snK (c : Dev nD) : FVec F S2048 .f32 :=
  Host.reduceAdd (mulf (a0 m c) (a0 m c)) (constant S_ .f32 0x00000000#32) reducesTo_S2048x256_S2048_d1 h_S_
def pnK (c : Dev nD) : FVec F S2048 .f32 :=
  Host.reduceAdd (mulf (a1 m c) (a1 m c)) (constant S_ .f32 0x00000000#32) reducesTo_S2048x256_S2048_d1 h_S_

theorem V_v8 (c : Dev nD) : (V m c main_v8 : S256x2048.Idx → Elt F .f32)
    = transpose S256x2048 [1, 0] (a0 m c) transposes_S2048x256_S256x2048_1_0 := by
  show StableHlo.after hostOps0 (fun b => m (c, b)) (Proc.devRef .tc main_v8) = _
  after_results
  all_goals rfl

theorem V_v9 (c : Dev nD) : (V m c main_v9 : S1x2048.Idx → Elt F .f32)
    = shapeCast S1x2048 (posK m c) shapeCasts_S2048_S1x2048 := by
  show StableHlo.after hostOps0 (fun b => m (c, b)) (Proc.devRef .tc main_v9) = _
  after_results
  all_goals rfl

theorem V_v10 (c : Dev nD) : (V m c main_v10 : S1x2048.Idx → Elt F .f32)
    = shapeCast S1x2048 (snK m c) shapeCasts_S2048_S1x2048 := by
  show StableHlo.after hostOps0 (fun b => m (c, b)) (Proc.devRef .tc main_v10) = _
  after_results
  all_goals rfl

theorem V_v11 (c : Dev nD) : (V m c main_v11 : S2048x1.Idx → Elt F .f32)
    = shapeCast S2048x1 (pnK m c) shapeCasts_S2048_S2048x1 := by
  show StableHlo.after hostOps0 (fun b => m (c, b)) (Proc.devRef .tc main_v11) = _
  after_results
  all_goals rfl

/-- Where the windows' blocks sit: the slabs move down with the point, the whole-array windows stay. -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)

/-- Row r of slab t is row 256 t + r of the table. -/
def row (t : Fin cfg0.N) (r : Fin 256) : Fin 2048 :=
  ⟨256 * t.val + r.val, by have ht : t.val < 8 := lt_of_lt_of_eq t.isLt N_0; have := r.isLt; omega⟩

theorem blk0_apply (c : Dev nD) (t : Fin cfg0.N) (r : Fin 256) (d : Fin 256) :
    blk0 m c t (ix2 r d) = a1 m c (ix2 (row t r) d) := by
  unfold blk0 iblk
  rw [View.read_apply]
  show V m c main_arg1 _ = _
  rw [V_main_arg1]
  show m (c.tc.loc main_arg1) _ = m (c.tc.loc main_arg1) _
  congr 1
  funext a
  apply Fin.ext
  match a with
  | ⟨0, _⟩ => show win0_0.index t 0 * 256 + 1 * r.val = 256 * t.val + r.val; rw [(idx0 t).1]; omega
  | ⟨1, _⟩ => show win0_0.index t 1 * 256 + 1 * d.val = d.val; rw [(idx0 t).2]; omega

theorem blk1_apply (c : Dev nD) (t : Fin cfg0.N) (d : Fin 256) (j : Fin 2048) :
    blk1 m c t (ix2 d j) = a0 m c (ix2 j d) := by
  unfold blk1 iblk
  rw [View.read_apply]
  show V m c main_v8 _ = _
  rw [V_v8]
  refine (congrArg _ (?_ : _ = ix2 d j)).trans (transpose_ix2_apply _ _ d j)
  funext a
  apply Fin.ext
  match a with
  | ⟨0, _⟩ => show win0_1.index t 0 * 256 + 1 * d.val = d.val; rw [(idx1 t).1]; omega
  | ⟨1, _⟩ => show win0_1.index t 1 * 2048 + 1 * j.val = j.val; rw [(idx1 t).2]; omega

theorem blk2_apply (c : Dev nD) (t : Fin cfg0.N) (j : Fin 2048) :
    blk2 m c t (ix2 0 j) = posK m c (ix1 j) := by
  unfold blk2 iblk
  rw [View.read_apply]
  show V m c main_v9 _ = _
  rw [V_v9]
  refine (congrArg _ (?_ : _ = ix2 (0 : Fin 1) j)).trans (shapeCast_a_1a_apply _ _ 0 j)
  funext a
  apply Fin.ext
  match a with
  | ⟨0, _⟩ => show win0_2.index t 0 * 1 + 1 * 0 = 0; rw [(idx2 t).1]
  | ⟨1, _⟩ => show win0_2.index t 1 * 2048 + 1 * j.val = j.val; rw [(idx2 t).2]; omega

theorem blk3_apply (c : Dev nD) (t : Fin cfg0.N) (j : Fin 2048) :
    blk3 m c t (ix2 0 j) = snK m c (ix1 j) := by
  unfold blk3 iblk
  rw [View.read_apply]
  show V m c main_v10 _ = _
  rw [V_v10]
  refine (congrArg _ (?_ : _ = ix2 (0 : Fin 1) j)).trans (shapeCast_a_1a_apply _ _ 0 j)
  funext a
  apply Fin.ext
  match a with
  | ⟨0, _⟩ => show win0_3.index t 0 * 1 + 1 * 0 = 0; rw [(idx3 t).1]
  | ⟨1, _⟩ => show win0_3.index t 1 * 2048 + 1 * j.val = j.val; rw [(idx3 t).2]; omega

theorem blk4_apply (c : Dev nD) (t : Fin cfg0.N) (r : Fin 256) :
    blk4 m c t (ix2 r 0) = pnK m c (ix1 (row t r)) := by
  unfold blk4 iblk
  rw [View.read_apply]
  show V m c main_v11 _ = _
  rw [V_v11]
  refine (congrArg _ (?_ : _ = ix2 (row t r) (0 : Fin 1))).trans (LibColumn.shapeCast_a_a1_apply _ _ (row t r) 0)
  funext a
  apply Fin.ext
  match a with
  | ⟨0, _⟩ => show win0_4.index t 0 * 256 + 1 * r.val = 256 * t.val + r.val; rw [(idx4 t).1]; omega
  | ⟨1, _⟩ => show win0_4.index t 1 * 1 + 1 * 0 = 0; rw [(idx4 t).2]

end Cert.KernelIdeal.Arrays

end
-- ==== Proof.MeanOfMeans.lean ====
/-
  Averaging a square table of nonnegative extended reals two ways.

  The table has n = 2048 rows and columns. One side divides the grand total by n^2 = 4194304; the other divides
  each row total by n, adds those quotients, and divides by n again. On the extended reals a product distributes
  over a sum only under side conditions; here every term is nonnegative (each entry is a maximum with zero), which
  is one of them, so the two averages agree even where an entry is +inf. Dividing by a nonzero real is multiplying
  by its reciprocal, and (1/2048)(1/2048) = 1/4194304.

  Also here: the three float words the two programs spell beside zero, read as the reals they denote, and the
  entrywise step: multiplying by (1 - d), d the indicator of the diagonal, is choosing 0 on the diagonal.
-/
import Idealize.ShloMosaic.PureOps.Ideal
import Idealize.ShloMosaic.PureOps.Ideal.Laws

noncomputable section

namespace Cert.MeanOfMeans

open Idealize.ShloMosaic

/-- The word of 2048.0 denotes the real 2048. -/
theorem ofBits_2048 : Ideal.ofBits .f32 0x45000000#32 = ((2048 : ℝ) : EReal) := by
  simp [Ideal.ofBits, Ideal.ieee, -EReal.coe_mul]; norm_num

/-- The word of 4194304.0 = 2^22 denotes the real 4194304. -/
theorem ofBits_4194304 : Ideal.ofBits .f32 0x4A800000#32 = ((4194304 : ℝ) : EReal) := by
  simp [Ideal.ofBits, Ideal.ieee, -EReal.coe_mul]; norm_num

/-- The word of 1.0 denotes 1. -/
theorem ofBits_one : Ideal.ofBits .f32 0x3F800000#32 = 1 := by
  simp [Ideal.ofBits, Ideal.ieee, -EReal.coe_mul]; norm_num

/-- A factor distributes over a finite sum of nonnegative extended reals. -/
theorem sum_mul_of_nonneg {ι : Type*} (s : Finset ι) (g : ι → EReal) (hg : ∀ i ∈ s, 0 ≤ g i) (a : EReal) :
    ∑ i ∈ s, g i * a = (∑ i ∈ s, g i) * a := by
  classical
  induction s using Finset.induction_on with
  | empty => simp
  | insert i s hi ih =>
    rw [Finset.sum_insert hi, Finset.sum_insert hi, ih fun j hj => hg j (Finset.mem_insert_of_mem hj)]
    exact (EReal.right_distrib_of_nonneg (hg i (Finset.mem_insert_self i s))
      (Finset.sum_nonneg fun j hj => hg j (Finset.mem_insert_of_mem hj))).symm

/-- The mean of the row means is the grand total over n^2, for nonnegative row totals g: with the zero the
    second sum starts from, and each division the one by the printed word. -/
theorem mean_of_means {ι : Type*} [Fintype ι] (g : ι → EReal) (hg : ∀ i, 0 ≤ g i) :
    Ideal.div (Ideal.ofBits .f32 0x00000000#32
        + ∑ i, Ideal.div (g i) (Ideal.ofBits .f32 0x45000000#32)) (Ideal.ofBits .f32 0x45000000#32)
      = Ideal.div (∑ i, g i) (Ideal.ofBits .f32 0x4A800000#32) := by
  rw [Ideal.ofBits_zero_f32, zero_add, ofBits_2048, ofBits_4194304,
    Ideal.div_coe (by norm_num : (2048 : ℝ) ≠ 0), Ideal.div_coe (by norm_num : (4194304 : ℝ) ≠ 0)]
  simp only [Ideal.div_coe (by norm_num : (2048 : ℝ) ≠ 0)]
  rw [sum_mul_of_nonneg _ _ (fun i _ => hg i), mul_assoc, ← EReal.coe_mul]
  congr 2
  norm_num

/-- One minus one is zero on the extended reals. -/
theorem one_sub_one : (1 : EReal) - 1 = 0 := by
  rw [← EReal.coe_one, ← EReal.coe_sub, sub_self, EReal.coe_zero]

/-- Off the diagonal the factor 1 - 0 keeps the entry; on it the factor 1 - 1 replaces the entry by 0, whatever
    the entry (an infinity times zero is zero on the extended reals). The bit b is the comparison of the row and
    column numbers, read as the float 1 or 0. -/
theorem mask_mul (a : EReal) (b : BitVec 1) :
    a * (Ideal.ofBits .f32 0x3F800000#32 - ((b.toNat : ℝ) : EReal))
      = if b = 1#1 then Ideal.ofBits .f32 0x00000000#32 else a := by
  rw [ofBits_one, Ideal.ofBits_zero_f32]
  by_cases h : b = 1#1
  · subst h
    rw [if_pos rfl]
    have h1 : (((1#1 : BitVec 1).toNat : ℝ) : EReal) = 1 := by norm_num
    rw [h1, one_sub_one, mul_zero]
  · have h0 : b = 0#1 := by
      apply BitVec.eq_of_toNat_eq
      have hlt := b.isLt
      have hne : b.toNat ≠ 1 := fun e => h (BitVec.eq_of_toNat_eq e)
      simp only [BitVec.toNat_ofNat]
      omega
    subst h0
    rw [if_neg (by decide)]
    simp

end Cert.MeanOfMeans

end
-- ==== Proof.LibBlockSum.lean ====
/-
  A sum over a range of length J·K, cut into J consecutive blocks of length K, in any commutative additive monoid
  (so in particular on the extended reals, where only associativity and commutativity of + are available).
-/
import Mathlib.Algebra.BigOperators.Fin
import Mathlib.Algebra.BigOperators.Intervals

namespace Cert.Lib

open Finset

/-- The sum of `f` over `0 … J·K - 1` is the sum over the blocks `s < J` of the sums of `f (K·s + l)` over `l < K`. -/
theorem sum_range_blocks {β : Type*} [AddCommMonoid β] (f : ℕ → β) (K : ℕ) :
    ∀ J : ℕ, ∑ i ∈ range (J * K), f i = ∑ s ∈ range J, ∑ l ∈ range K, f (K * s + l)
  | 0 => by simp
  | J + 1 => by
    rw [Nat.succ_mul, sum_range_add, sum_range_blocks f K J, sum_range_succ, Nat.mul_comm J K]

/-- The same with the whole sum and the inner sums indexed by `Fin`. -/
theorem sum_fin_blocks {β : Type*} [AddCommMonoid β] (f : ℕ → β) (J K : ℕ) :
    ∑ i : Fin (J * K), f i.val = ∑ s ∈ range J, ∑ l : Fin K, f (K * s + l.val) := by
  rw [Fin.sum_univ_eq_sum_range (fun i => f i) (J * K), sum_range_blocks f K J]
  refine sum_congr rfl fun s _ => ?_
  exact (Fin.sum_univ_eq_sum_range (fun l => f (K * s + l)) K).symm

end Cert.Lib
-- ==== Proof.Spec.lean ====
/-
  The number both programs compute, as one formula over the two input tables.

  Inputs: x0 and x1, two [2048, 256] tables (the sketches and the photos), and three vectors of length 2048 derived
  from them on the host the same way in both programs, kept abstract here: pos (the distance between row j of x0
  and row j of x1), sn (the squared norm of row j of x0), pn (the squared norm of row i of x1).

  cross i k is the inner product of row i of x1 with row k of x0. Entry (i, k) of the loss table is
      max( [i = k ? 0 : (pos k - sqrt(max(pn i + sn k - 2 cross i k, 0))) + margin], 0 ),
  the test i = k being the one-bit comparison of the two 32-bit words. The value is the sum of all entries
  divided by 2048^2.

  Two shapes of that value are proved equal to it here:
  * the mean over rows of the means of the rows, each sum started from the zero word (the reference's shape);
  * a running total over eight consecutive slabs of 256 rows, started from the zero word, divided at the end
    (the kernel's shape).
-/
import Idealize.ShloMosaic.PureOps.Ideal
import Idealize.ShloMosaic.PureOps.Ideal.Laws
import Idealize.ShloMosaic.Lib.ValueIdx
import proofs.«122405_j75943611728236_1_alg».proof.Proof.MeanOfMeans
import proofs.«122405_j75943611728236_1_alg».proof.Proof.LibBlockSum

noncomputable section

namespace Cert.Spec

open Idealize.ShloMosaic Idealize.ShloMosaic.ValueIdx

abbrev SA : Shape := ⟨2, ![2048, 256]⟩
abbrev SV : Shape := ⟨1, ![2048]⟩

variable (pos sn pn : SV.Idx → EReal) (x0 x1 : SA.Idx → EReal)

/-- The inner product of row i of x1 with row k of x0. -/
def cross (i k : Fin 2048) : EReal := ∑ d : Fin 256, x1 (ix2 i d) * x0 (ix2 k d)

/-- Entry (i, k) before the diagonal is cleared and the negative part dropped. -/
def raw (i k : Fin 2048) : EReal :=
  (pos (ix1 k) - Ideal.sqrt (max ((pn (ix1 i) + sn (ix1 k)) - Ideal.ofBits .f32 0x40000000#32 * cross x0 x1 i k)
      (Ideal.ofBits .f32 0x00000000#32))) + Ideal.ofBits .f32 0x3E99999A#32

/-- Entry (i, k) of the loss table. -/
def entry (i k : Fin 2048) : EReal :=
  max (if IntOp.cmpi .eq (BitVec.ofNat 32 i.val) (BitVec.ofNat 32 k.val) = 1#1 then Ideal.ofBits .f32 0x00000000#32
    else raw pos sn pn x0 x1 i k) (Ideal.ofBits .f32 0x00000000#32)

theorem entry_nonneg (i k : Fin 2048) : 0 ≤ entry pos sn pn x0 x1 i k := by
  unfold entry
  rw [Ideal.ofBits_zero_f32]
  exact le_max_right _ _

/-- The total of row i. -/
def rowTotal (i : Fin 2048) : EReal := ∑ k : Fin 2048, entry pos sn pn x0 x1 i k

theorem rowTotal_nonneg (i : Fin 2048) : 0 ≤ rowTotal pos sn pn x0 x1 i :=
  Finset.sum_nonneg fun k _ => entry_nonneg pos sn pn x0 x1 i k

/-- The value: the grand total over 2048^2. -/
def value : EReal := Ideal.div (∑ i : Fin 2048, rowTotal pos sn pn x0 x1 i) (Ideal.ofBits .f32 0x4A800000#32)

/-- Indices of a length-2048 vector are the numbers below 2048. -/
def idxEquiv1 : SV.Idx ≃ Fin 2048 where
  toFun j := j 0
  invFun a := ix1 a
  left_inv j := (eq_ix1 j).symm
  right_inv _ := rfl

/-- The reference's shape: the mean of the row means. -/
theorem mean_form :
    Ideal.div (Ideal.ofBits .f32 0x00000000#32
        + ∑ j : SV.Idx, Ideal.div (Ideal.ofBits .f32 0x00000000#32 + ∑ k : Fin 2048, entry pos sn pn x0 x1 (j 0) k)
            (Ideal.ofBits .f32 0x45000000#32)) (Ideal.ofBits .f32 0x45000000#32)
      = value pos sn pn x0 x1 := by
  rw [MeanOfMeans.mean_of_means (fun j : SV.Idx => Ideal.ofBits .f32 0x00000000#32 + ∑ k : Fin 2048, entry pos sn pn x0 x1 (j 0) k)
    (fun j => by rw [Ideal.ofBits_zero_f32, zero_add]; exact rowTotal_nonneg pos sn pn x0 x1 (j 0))]
  unfold value
  congr 1
  rw [← Equiv.sum_comp idxEquiv1 (rowTotal pos sn pn x0 x1)]
  refine Finset.sum_congr rfl fun j _ => ?_
  rw [Ideal.ofBits_zero_f32, zero_add]
  rfl

/-- Row totals by row number, zero past the table. -/
def rowTotalN (n : ℕ) : EReal := if h : n < 2048 then rowTotal pos sn pn x0 x1 ⟨n, h⟩ else 0

/-- The kernel's shape: a running total a over eight slabs of 256 rows, from the zero word, ends at the grand
    total. T s is slab s's total. -/
theorem slab_form (a T : ℕ → EReal) (h0 : a 0 = Ideal.ofBits .f32 0x00000000#32 + T 0)
    (hs : ∀ n, n + 1 < 8 → a (n + 1) = a n + T (n + 1))
    (hT : ∀ s, s < 8 → T s = ∑ l : Fin 256, rowTotalN pos sn pn x0 x1 (256 * s + l.val)) :
    Ideal.div (a 7) (Ideal.ofBits .f32 0x4A800000#32) = value pos sn pn x0 x1 := by
  have hacc : ∀ n, n < 8 → a n = ∑ s ∈ Finset.range (n + 1), T s := by
    intro n
    induction n with
    | zero => intro _; rw [h0, Ideal.ofBits_zero_f32, zero_add, Finset.sum_range_one]
    | succ n ih => intro hn; rw [hs n hn, ih (by omega), Finset.sum_range_succ _ (n + 1)]
  unfold value
  congr 1
  rw [hacc 7 (by decide)]
  have e : ∑ i : Fin 2048, rowTotal pos sn pn x0 x1 i = ∑ i : Fin (8 * 256), rowTotalN pos sn pn x0 x1 i.val :=
    Finset.sum_congr rfl fun i _ => by unfold rowTotalN; rw [dif_pos i.isLt]
  rw [e, Cert.Lib.sum_fin_blocks (rowTotalN pos sn pn x0 x1) 8 256]
  exact Finset.sum_congr rfl fun s hs' => hT s (Finset.mem_range.mp hs')

end Cert.Spec

end
-- ==== Proof.KernelValue.lean ====
/-
  The kernel program's result is the value.

  Tile t of the kernel's loss table, at (r, j), is entry (256 t + r, j) of the common formula's table: the slab of
  photos supplies row 256 t + r, the transposed sketches supply column j, the row vectors and the column supply
  pos j, sn j and pn (256 t + r), and the diagonal test compares r + 256 t with j as 32-bit words. The
  accumulator's one entry then runs through the slab totals in order, and the returned scalar is the last running
  total over 2^22: the slab shape of the value.
-/
import proofs.«122405_j75943611728236_1_alg».proof.Proof.KernelRun
import proofs.«122405_j75943611728236_1_alg».proof.Proof.KernelTile
import proofs.«122405_j75943611728236_1_alg».proof.Proof.KernelArrays
import proofs.«122405_j75943611728236_1_alg».proof.Proof.Spec

noncomputable section

open Idealize.ShloMosaic Idealize.ShloMosaic.TcCoe Idealize.SL.Sem Idealize.ShloMosaic.ValueIdx

namespace Cert.KernelIdeal.KValue

open Cert.KernelIdeal Cert.KernelIdeal.Gen Cert.KernelIdeal.Pieces Cert.KernelIdeal.Arrays

variable (m : (ℓ : Loc nD τ sig) → Buf (Elt Ideal) ℓ)

/-- The common formula's table at the kernel's inputs. -/
abbrev entryK (c : Dev nD) (i k : Fin 2048) : EReal :=
  Spec.entry (posK m c) (snK m c) (pnK m c) (a0 m c) (a1 m c) i k

/-- The grid's one coordinate at point t is t. -/
theorem coord0 : ∀ t : Fin cfg0.N, (grid0.coords t 0).val = t.val :=
  (by decide +kernel : ∀ t : Fin grid0.N, (grid0.coords t 0).val = t.val)

/-- The row number the body compares: r + 256 t as a 32-bit word is the word of 256 t + r. -/
theorem row_word (t : Fin cfg0.N) (r : Fin 256) :
    IntOp.addi (BitVec.ofNat 32 r.val) (Scalar.muli (BitVec.ofNat 32 (grid0.coords t 0).val) 256#32)
      = BitVec.ofNat 32 (row t r).val := by
  rw [coord0 t]
  have ht : t.val < 8 := lt_of_lt_of_eq t.isLt N_0
  have hr := r.isLt
  apply BitVec.eq_of_toNat_eq
  show (BitVec.ofNat 32 r.val + BitVec.ofNat 32 t.val * 256#32).toNat = (BitVec.ofNat 32 (256 * t.val + r.val)).toNat
  simp only [BitVec.toNat_add, BitVec.toNat_mul, BitVec.toNat_ofNat]
  omega

/-- Tile t at (r, j) is entry (256 t + r, j). -/
theorem tile_apply (c : Dev nD) (t : Fin cfg0.N) (r : Fin 256) (j : Fin 2048) :
    tile m c t (ix2 r j) = entryK m c (row t r) j := by
  unfold tile
  rw [Tile.pay4_apply, row_word]
  simp only [blk0_apply, blk1_apply, blk2_apply, blk3_apply, blk4_apply]
  rfl

/-- The accumulator's entry after point n, and slab n's total, by number (zero past the grid). -/
def accN (c : Dev nD) (n : ℕ) : EReal := if h : n < cfg0.N then acc m c n h (ix2 0 0) else 0
def slabN (c : Dev nD) (s : ℕ) : EReal :=
  if h : s < cfg0.N then ∑ r : Fin 256, ∑ j : Fin 2048, tile m c ⟨s, h⟩ (ix2 r j) else 0

theorem lt_N {n : ℕ} (h : n < 8) : n < cfg0.N := lt_of_lt_of_eq h N_0.symm

/-- The returned scalar is the value. -/
theorem value_eq (c : Dev nD) :
    shapeCast S_ (result m c) shapeCasts_S1x1_S_ ix0
      = Spec.value (posK m c) (snK m c) (pnK m c) (a0 m c) (a1 m c) := by
  have e0 : shapeCast S_ (result m c) shapeCasts_S1x1_S_ ix0 = result m c (ix2 0 0) :=
    shapeCast_apply (result m c) shapeCasts_S1x1_S_ ix0 (ix2 0 0)
      (by show (S1x1.rowMajor (ix2 0 0)).val = (S_.rowMajor ix0).val; decide)
  rw [e0]
  show k0_pay2 (acc m c 7 lt7) (ix2 0 0) = _
  rw [Tile.pay2_apply]
  have h7 : accN m c 7 = acc m c 7 lt7 (ix2 0 0) := dif_pos lt7
  rw [← h7]
  refine Spec.slab_form (posK m c) (snK m c) (pnK m c) (a0 m c) (a1 m c) (accN m c) (slabN m c) ?_ ?_ ?_
  · unfold accN slabN
    rw [dif_pos (lt_N (by decide : 0 < 8)), dif_pos (lt_N (by decide : 0 < 8))]
    show k0_pay1 (F := Ideal) (tile m c ⟨0, _⟩) (k0_pay3 (F := Ideal)) (ix2 0 0) = _
    rw [Tile.pay1_apply, Tile.pay3_apply]
  · intro n hn
    unfold accN slabN
    rw [dif_pos (lt_N hn), dif_pos (lt_N (by omega : n < 8)), dif_pos (lt_N hn)]
    show k0_pay1 (F := Ideal) (tile m c ⟨n + 1, _⟩) (acc m c n _) (ix2 0 0) = _
    rw [Tile.pay1_apply]
  · intro s hs
    unfold slabN
    rw [dif_pos (lt_N hs)]
    refine Finset.sum_congr rfl fun r _ => ?_
    have hrow : 256 * s + r.val < 2048 := by have := r.isLt; omega
    unfold Spec.rowTotalN
    rw [dif_pos hrow]
    unfold Spec.rowTotal
    refine Finset.sum_congr rfl fun j _ => ?_
    exact tile_apply m c ⟨s, lt_N hs⟩ r j

end Cert.KernelIdeal.KValue

end
-- ==== Proof.RefValue.lean ====
/-
  The reference program's result is the value: its loss table, entry by entry, is the table of the common formula
  (multiplying by one minus the diagonal's indicator is choosing zero on the diagonal), and its two nested means
  are the mean of the row means.
-/
import proofs.«122405_j75943611728236_1_alg».proof.Proof.Gen.ReferenceIdeal.Read
import proofs.«122405_j75943611728236_1_alg».proof.Proof.Spec

noncomputable section

namespace Cert.ReferenceIdeal.RefValue

open Cert.ReferenceIdeal Cert.ReferenceIdeal.Read Idealize.ShloMosaic Idealize.ShloMosaic.ValueIdx

variable (x0 x1 : (⟨S2048x256, .f32⟩ : BufTy).Contents (Elt Ideal))

/-- The three host vectors, as the reference computes them. -/
abbrev posv : S2048.Idx → EReal := val_main_v3 (F := Ideal) x0 x1
abbrev snv : S2048.Idx → EReal := val_main_v5 (F := Ideal) x0
abbrev pnv : S2048.Idx → EReal := val_main_v7 (F := Ideal) x1

/-- A one-bit word read as a float is 1 or 0. -/
theorem uitofp_ideal (b : BitVec 1) : FloatOps.uitofp (F := Ideal) .f32 b = ((b.toNat : ℝ) : EReal) := rfl

/-- Entry (i, k) of the reference's loss table. -/
theorem entry_eq (i k : Fin 2048) :
    val_main_v34 (F := Ideal) x0 x1 (ix2 i k) = Spec.entry (posv x0 x1) (snv x0) (pnv x1) x0 x1 i k := by
  have e21 : idx_main_v20 (idx_main_v21 (ix2 i k)) = ix1 k := funext fun a => Fin.ext (by match a with | ⟨0, _⟩ => rfl)
  have e11 : idx_main_v9 (idx_main_v11 (ix2 i k)) = ix1 i := funext fun a => Fin.ext (by match a with | ⟨0, _⟩ => rfl)
  have e12 : idx_main_v10 (idx_main_v12 (ix2 i k)) = ix1 k := funext fun a => Fin.ext (by match a with | ⟨0, _⟩ => rfl)
  have el : ∀ d : Fin 256, lidx_main_v8 (ix2 i k) d = ix2 i d := fun d =>
    funext fun a => Fin.ext (by match a with | ⟨0, _⟩ => rfl | ⟨1, _⟩ => rfl)
  have er : ∀ d : Fin 256, ridx_main_v8 (ix2 i k) d = ix2 k d := fun d =>
    funext fun a => Fin.ext (by match a with | ⟨0, _⟩ => rfl | ⟨1, _⟩ => rfl)
  rw [val_main_v34_apply, val_main_v33_apply, val_main_v24_apply, val_main_v22_apply, val_main_v21_apply,
    val_main_v20_apply, val_main_v19_apply, val_main_v18_apply, val_main_v16_apply, val_main_v13_apply,
    val_main_v11_apply, val_main_v9_apply, val_main_v12_apply, val_main_v10_apply, val_main_v15_apply,
    val_main_v14_apply, val_main_cst_2_apply, val_main_v8_apply, val_main_v17_apply, val_main_cst_3_apply,
    val_main_v23_apply, val_main_cst_4_apply, val_main_v32_apply, val_main_v31_apply, val_main_cst_5_apply,
    val_main_v30_apply, val_main_v29_apply, val_main_v28_apply, val_main_v25_apply, val_main_v27_apply,
    val_main_c_apply, val_main_v26_apply, val_main_call0_v0_apply, val_main_call0_cst_apply, e21, e11, e12]
  simp only [el, er]
  simp only [Ideal.maximumf_def, Ideal.mulf_def, Ideal.addf_def, Ideal.subf_def, Ideal.hostUnary_sqrt_def,
    Ideal.ofBits_def, uitofp_ideal]
  rw [MeanOfMeans.mask_mul]
  have ha : IntOp.addi (BitVec.ofNat 32 (ix2 i k 0).val) 0#32 = BitVec.ofNat 32 i.val := by
    show BitVec.ofNat 32 i.val + 0#32 = _
    exact BitVec.add_zero _
  rw [ha]
  rfl

/-- The reference's result: the mean of the row means of that table. -/
theorem value_eq :
    val_main_v39 (F := Ideal) x0 x1 ix0 = Spec.value (posv x0 x1) (snv x0) (pnv x1) x0 x1 := by
  have he : ∀ (j : S2048.Idx) (k : Fin 2048),
      val_main_v34 (F := Ideal) x0 x1 (idx_main_v35 j k) = Spec.entry (posv x0 x1) (snv x0) (pnv x1) x0 x1 (j 0) k := fun j k => by
    rw [show idx_main_v35 j k = ix2 (j 0) k from
      funext fun a => Fin.ext (by match a with | ⟨0, _⟩ => rfl | ⟨1, _⟩ => rfl)]
    exact entry_eq x0 x1 (j 0) k
  rw [val_main_v39_apply, val_main_v38_apply, val_main_cst_9_apply, val_main_cst_8_apply]
  simp only [val_main_v37_apply, val_main_v36_apply, val_main_cst_7_apply, val_main_v35_apply, val_main_cst_6_apply, he,
    Ideal.hostDivf_def, Ideal.ofBits_def]
  exact Spec.mean_form (posv x0 x1) (snv x0) (pnv x1) x0 x1

end Cert.ReferenceIdeal.RefValue

end
-- ==== Proof.lean ====
/- The claims: both kernel programs run and leave their arguments alone (the generated frames); the reference
   runs (its generated run, the result dropped); the ideal pass rewrote nothing; and at the ideal values the
   kernel's returned scalar and the reference's are the same number.

   That number is the sum over all pairs (i, k) of max([i = k ? 0 : (pos k - sqrt(max(pn i + sn k - 2 <photo i, sketch k>, 0))) + margin], 0),
   divided by 2048^2. The kernel reaches it by a running total over eight slabs of 256 rows divided once at the
   end; the reference by the mean of the row means, after clearing the diagonal by a product with one minus its
   indicator. The slab totals re-bracket a sum (always allowed on the extended reals); the two divisions by 2048
   against one by 2048^2 need a product to distribute over a sum, which holds because every entry is a maximum
   with zero, hence nonnegative; and an entry times zero is zero even at an infinity. So no finiteness of the
   inputs is used. -/
import proofs.«122405_j75943611728236_1_alg».proof.Defs
import proofs.«122405_j75943611728236_1_alg».proof.Proof.Gen.Kernel
import proofs.«122405_j75943611728236_1_alg».proof.Proof.Gen.Kernel.Skeleton
import proofs.«122405_j75943611728236_1_alg».proof.Proof.Gen.Kernel.Launch
import proofs.«122405_j75943611728236_1_alg».proof.Proof.Gen.Kernel.Points
import proofs.«122405_j75943611728236_1_alg».proof.Proof.Gen.Kernel.Frame
import proofs.«122405_j75943611728236_1_alg».proof.Proof.Gen.KernelIdeal
import proofs.«122405_j75943611728236_1_alg».proof.Proof.Gen.KernelIdeal.Skeleton
import proofs.«122405_j75943611728236_1_alg».proof.Proof.Gen.KernelIdeal.Launch
import proofs.«122405_j75943611728236_1_alg».proof.Proof.Gen.KernelIdeal.Points
import proofs.«122405_j75943611728236_1_alg».proof.Proof.Gen.KernelIdeal.Frame
import proofs.«122405_j75943611728236_1_alg».proof.Proof.Gen.ReferenceIdeal
import proofs.«122405_j75943611728236_1_alg».proof.Proof.Gen.Pre_finite_inputs
import proofs.«122405_j75943611728236_1_alg».proof.Proof.Gen.ReferenceIdeal.Run
import proofs.«122405_j75943611728236_1_alg».proof.Proof.Gen.ReferenceIdeal.Read
import proofs.«122405_j75943611728236_1_alg».proof.Proof.KernelValue
import proofs.«122405_j75943611728236_1_alg».proof.Proof.RefValue
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the value in the returned scalar: the kernel's by the slab shape, the reference's by the
    mean of means, of arguments that agree; the three host vectors are the same terms in both programs. -/
theorem algebraic : Cert.algebraic_KernelIdeal_ReferenceIdeal := by
  intro m ρ m' ρ' _ hagree
  refine ⟨fun c => shapeCast Cert.KernelIdeal.S_ (Cert.KernelIdeal.Pieces.result m c) Cert.KernelIdeal.Facts₀.shapeCasts_S1x1_S_,
    Cert.KernelIdeal.Pieces.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v39_eq _ _).trans ?_
  rw [(hagree c).1, (hagree c).2]
  funext i
  rw [eq_ix0 i]
  refine (Cert.ReferenceIdeal.RefValue.value_eq _ _).trans ?_
  refine Eq.trans ?_ (Cert.KernelIdeal.KValue.value_eq m c).symm
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
